-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) (main_arg1 : IVec S16384x2048 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S16384x2048 : Shape := ⟨2, ![16384, 2048]⟩
abbrev S16384x1 : Shape := ⟨2, ![16384, 1]⟩
abbrev S512x2048 : Shape := ⟨2, ![512, 2048]⟩
abbrev S512x1 : Shape := ⟨2, ![512, 1]⟩
abbrev S512 : Shape := ⟨1, ![512]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S16384x2048, .i32⟩
  | .hbm, ⟨2, _⟩ => ⟨S16384x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .i32⟩
  | .local _ .vmem, ⟨3, _⟩ => ⟨S512x2048, .i32⟩
  | .local _ .vmem, ⟨4, _⟩ => ⟨S512x1, .f32⟩
  | .local _ .vmem, ⟨5, _⟩ => ⟨S512x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  reducesTo_S16384x1_S_d0_1 : S16384x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .i32 = 32 ∨ (Rect.block (s := S16384x2048) S512x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S_ : Shape := ⟨0, ![]⟩
abbrev S16384 : Shape := ⟨1, ![16384]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .i32⟩
  | .hbm, ⟨2, _⟩ => ⟨S16384x2048, .f32⟩
  | .hbm, ⟨3, _⟩ => ⟨S_, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S_S16384x2048 : S_.BroadcastsInDim S16384x2048 (![] : Fin 0 → Fin S16384x2048.rank)
  reducesTo_S16384x2048_S16384_d1 : S16384x2048.ReducesTo [1] S16384
  h_S_ : 0 < S_.numel
  reducesTo_S16384_S_d0 : S16384.ReducesTo [0] S_

variable [Facts₀]

class Facts : Prop extends Facts₀ where

variable [Facts]
-- ==== Proof.LsepSpec.lean ====
/-
  The log-sum-exp-pairwise loss, as ONE function of the two argument arrays over the extended reals.

  For a row `r` of scores `x` and integer labels `ℓ` (read signed, exactly), write
    N r = ∑ₖ (1 − ℓ(r,k)) · e^{x(r,k)}        (the label-0 entries' exponentials),
    P r = ∑ₖ ℓ(r,k) · e^{0 − x(r,k)}          (the label-1 entries' inverse exponentials),
  and `rowLoss r = log (1 + N r · P r)`. The result is the mean of `rowLoss` over the 16384 rows: the rows'
  sum, started from the zero word, divided by the word of 16384.

  The one law a comparison with a quotient form needs is here too: at a REAL score `x`,
  `ℓ · e^{0 − x} = ℓ / e^{x}`, since `e^{x}` is a nonzero real whose reciprocal is `e^{−x}`. (At an infinite score the
  two sides need not agree: `e^{−∞} = 0` and a quotient by zero is an infinity.) Last, sums over the index sets of a
  column `[n, 1]` and of a vector `[n]` as sums over the row coordinate.
-/
import Idealize.ShloMosaic.PureOps.Ideal
import Idealize.ShloMosaic.PureOps.Ideal.Laws
import Idealize.ShloMosaic.Lib.ValueIdx

noncomputable section

open scoped BigOperators

namespace Cert.Lsep

open Idealize.ShloMosaic Idealize.ShloMosaic.ValueIdx

/-- One entry's share of the label-0 sum: `(1 − ℓ) · eˣ`. -/
def negT (x : EReal) (l : BitVec 32) : EReal :=
  (Ideal.ofBits .f32 0x3F800000#32 - ((l.toInt : ℝ) : EReal)) * Ideal.exp x

/-- One entry's share of the label-1 sum, in the product form: `ℓ · e^{0 − x}`. -/
def posT (x : EReal) (l : BitVec 32) : EReal :=
  ((l.toInt : ℝ) : EReal) * Ideal.exp (Ideal.ofBits .f32 0x00000000#32 - x)

/-- At a real score the product form is the quotient form: `ℓ · e^{−x} = ℓ / eˣ`. -/
theorem posT_eq_div (r : ℝ) (l : BitVec 32) :
    posT (r : EReal) l = Ideal.div ((l.toInt : ℝ) : EReal) (Ideal.exp (r : EReal)) := by
  unfold posT
  rw [Ideal.ofBits_zero_f32, zero_sub, ← EReal.coe_neg, Ideal.exp_coe, Ideal.exp_coe,
    Ideal.div_coe (Real.exp_pos r).ne', one_div, Real.exp_neg]

/-- The loss of row `r`: `log (1 + N r · P r)`. -/
def rowLoss (x : (⟨2, ![16384, 2048]⟩ : Shape).Idx → EReal) (l : (⟨2, ![16384, 2048]⟩ : Shape).Idx → BitVec 32)
    (r : Fin 16384) : EReal :=
  Ideal.log1p ((∑ k : Fin 2048, negT (x (ix2 r k)) (l (ix2 r k))) * (∑ k : Fin 2048, posT (x (ix2 r k)) (l (ix2 r k))))

/-- The rows' losses laid out as a column `[16384, 1]`. -/
def lossColumn (x : (⟨2, ![16384, 2048]⟩ : Shape).Idx → EReal) (l : (⟨2, ![16384, 2048]⟩ : Shape).Idx → BitVec 32) :
    (⟨2, ![16384, 1]⟩ : Shape).Idx → EReal :=
  fun i => rowLoss x l (i 0)

/-- The mean loss: the rows' sum from the zero word, over the word of 16384. -/
def meanLoss (x : (⟨2, ![16384, 2048]⟩ : Shape).Idx → EReal) (l : (⟨2, ![16384, 2048]⟩ : Shape).Idx → BitVec 32) : EReal :=
  Ideal.div (Ideal.ofBits .f32 0x00000000#32 + ∑ r : Fin 16384, rowLoss x l r) (Ideal.ofBits .f32 0x46800000#32)

/-- A vector's index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over a column's index set is the sum over the row coordinate. -/
theorem sum_column {M : Type*} [AddCommMonoid M] {n : Nat} (f : (⟨2, ![n, 1]⟩ : Shape).Idx → M) :
    ∑ i, f i = ∑ a : Fin n, f (ix2 a 0) := by
  rw [sum_idx2]
  exact Finset.sum_congr rfl fun a _ => Fin.sum_univ_one _

end Cert.Lsep

end
-- ==== Proof.Finite.lean ====
/-
  What the precondition says of one score: it is a real number.

  The precondition is `all (|x| < +∞)`: a reduction by `and` of the entrywise comparison, equal to 1. So the
  comparison is 1 at every entry; the word it compares against denotes `+∞`; and an extended real whose absolute value
  `max x (−x)` is below `+∞` is neither infinity.
-/
import proofs.«118138_j13572096655779_1_alg».proof.Proof.Gen.Pre_finite_inputs
import Idealize.ShloMosaic.Lib.ReduceAll
import Idealize.ShloMosaic.Lib.Pipeline.Value
import Idealize.ShloMosaic.PureOps.Ideal

noncomputable section

namespace Cert.Lsep.Finite

open Idealize.ShloMosaic Cert.Pre_finite_inputs Cert.Pre_finite_inputs.Gen

instance : Subsingleton Cert.Pre_finite_inputs.S_.Idx := ⟨fun _ _ => funext fun d => d.elim0⟩

/-- An extended real whose absolute value compares below the word of `+∞` is a real. -/
theorem real_of_abs_lt (x : EReal) (h : Ideal.cmp .olt (max x (-x)) (Ideal.ofBits .f32 0x7F800000#32) = 1#1) :
    ∃ ρ : ℝ, x = (ρ : EReal) := by
  induction x using EReal.rec with
  | bot => exfalso; revert h; simp [Ideal.cmp, Ideal.ofBits, Ideal.ieee]
  | coe r => exact ⟨r, rfl⟩
  | top => exfalso; revert h; simp [Ideal.cmp, Ideal.ofBits, Ideal.ieee]

/-- Under the precondition every score is a real. -/
theorem real_of_pre (x0 : FVec Ideal S16384x2048 .f32) (x1 : IVec S16384x2048 32)
    (h : Cert.Pre_finite_inputs.fn (F := Ideal) x0 x1 = fun _ => 1#1) (i : S16384x2048.Idx) :
    ∃ ρ : ℝ, x0 i = (ρ : EReal) := by
  have h0 := congrFun h (fun a => a.elim0)
  dsimp only [Cert.Pre_finite_inputs.fn] at h0
  have hi := Host.reduce_andi_all _ _ _ _ _ h0 i
  refine real_of_abs_lt (x0 i) ?_
  refine Eq.trans ?_ hi
  show Ideal.cmp .olt (max (x0 i) (-(x0 i))) (Ideal.ofBits .f32 0x7F800000#32)
    = Ideal.cmp .olt (max (x0 i) (-(x0 i))) (broadcastInDim S16384x2048 ![] bcast_S_S16384x2048 (constant (F := Ideal) S_ .f32 0x7F800000#32) i)
  rw [broadcastInDim_apply _ bcast_S_S16384x2048 (constant (F := Ideal) S_ .f32 0x7F800000#32) i (fun a => a.elim0) (fun a => a.elim0)]
  rfl

end Cert.Lsep.Finite

end
-- ==== Proof.RefRow.lean ====
/-
  The reference, read at an index, is the mean loss of `LsepSpec` whenever every score is a real number.

  Entry by entry the reference's label-0 product `(1 − ℓ) · eˣ` is `negT` as written; its label-1 quotient `ℓ / eˣ` is
  `posT`'s product `ℓ · e^{0 − x}` by the one law of the specification, which is where a real score is needed. A row's
  two host sums start from the zero word, which is the extended real `0`; the rows' sum and the final quotient by the
  word of 16384 are the specification's own.
-/
import proofs.«118138_j13572096655779_1_alg».proof.Proof.Gen.ReferenceIdeal.Run
import proofs.«118138_j13572096655779_1_alg».proof.Proof.Gen.ReferenceIdeal.Read
import proofs.«118138_j13572096655779_1_alg».proof.Proof.LsepSpec

noncomputable section

open scoped BigOperators

namespace Cert.Lsep.Ref

open Cert.ReferenceIdeal Cert.ReferenceIdeal.Gen Cert.ReferenceIdeal.Read
open Idealize.ShloMosaic Idealize.ShloMosaic.TcCoe Idealize.ShloMosaic.ValueIdx Cert.Lsep

/-- The index the row sums read at row `r`, column `k`. -/
theorem idx_v5 (r : Fin 16384) (k : Fin 2048) : idx_main_v5 (ix1 r) k = ix2 r k :=
  funext fun a => Fin.ext (by match a with | ⟨0, _⟩ => rfl | ⟨1, _⟩ => rfl)

theorem idx_v7 (r : Fin 16384) (k : Fin 2048) : idx_main_v7 (ix1 r) k = ix2 r k :=
  funext fun a => Fin.ext (by match a with | ⟨0, _⟩ => rfl | ⟨1, _⟩ => rfl)

/-- The label-0 product at an entry. -/
theorem v4_entry (x0 : (⟨S16384x2048, .f32⟩ : BufTy).Contents (Elt Ideal)) (x1 : (⟨S16384x2048, .i32⟩ : BufTy).Contents (Elt Ideal))
    (r : Fin 16384) (k : Fin 2048) :
    val_main_v4 (F := Ideal) x0 x1 (ix2 r k) = negT (x0 (ix2 r k)) (x1 (ix2 r k)) := by
  rw [val_main_v4_apply, val_main_v2_apply, val_main_v1_apply, val_main_cst_apply, val_main_v0_apply, val_main_v3_apply]
  rfl

/-- The label-1 quotient at an entry whose score is real. -/
theorem v6_entry (x0 : (⟨S16384x2048, .f32⟩ : BufTy).Contents (Elt Ideal)) (x1 : (⟨S16384x2048, .i32⟩ : BufTy).Contents (Elt Ideal))
    (r : Fin 16384) (k : Fin 2048) (ρ : ℝ) (h : x0 (ix2 r k) = (ρ : EReal)) :
    val_main_v6 (F := Ideal) x0 x1 (ix2 r k) = posT (x0 (ix2 r k)) (x1 (ix2 r k)) := by
  rw [val_main_v6_apply, val_main_v0_apply, val_main_v3_apply, h, posT_eq_div]
  rfl

/-- A row of the reference is the row's loss. -/
theorem v9_row (x0 : (⟨S16384x2048, .f32⟩ : BufTy).Contents (Elt Ideal)) (x1 : (⟨S16384x2048, .i32⟩ : BufTy).Contents (Elt Ideal))
    (hx : ∀ i, ∃ ρ : ℝ, x0 i = (ρ : EReal)) (r : Fin 16384) :
    val_main_v9 (F := Ideal) x0 x1 (ix1 r) = rowLoss x0 x1 r := by
  rw [val_main_v9_apply, val_main_v8_apply, val_main_v5_apply, val_main_v7_apply, val_main_cst_0_apply, val_main_cst_1_apply]
  unfold rowLoss
  simp only [Ideal.hostUnary_log1p_def, Ideal.mulf_def, Ideal.ofBits_def, Ideal.ofBits_zero_f32, zero_add, idx_v5, idx_v7]
  refine congrArg Ideal.log1p (congrArg₂ (· * ·) ?_ ?_)
  · exact Finset.sum_congr rfl fun k _ => v4_entry x0 x1 r k
  · refine Finset.sum_congr rfl fun k _ => ?_
    obtain ⟨ρ, hρ⟩ := hx (ix2 r k)
    exact v6_entry x0 x1 r k ρ hρ

/-- The reference's result is the mean loss. -/
theorem result_eq (x0 : (⟨S16384x2048, .f32⟩ : BufTy).Contents (Elt Ideal)) (x1 : (⟨S16384x2048, .i32⟩ : BufTy).Contents (Elt Ideal))
    (hx : ∀ i, ∃ ρ : ℝ, x0 i = (ρ : EReal)) (i : S_.Idx) :
    val_main_v11 (F := Ideal) x0 x1 i = meanLoss x0 x1 := by
  rw [val_main_v11_apply, val_main_v10_apply, val_main_cst_2_apply, val_main_cst_3_apply, sum_idx1]
  unfold meanLoss
  simp only [Ideal.hostDivf_def, Ideal.ofBits_def]
  rw [Finset.sum_congr rfl fun r _ => v9_row x0 x1 hx r]

end Cert.Lsep.Ref

end
-- ==== Proof.KernelRow.lean ====
/-
  The kernel body's one stored value, read at a row of its [512, 1] block.

  The body forms, entry by entry over its [512, 2048] blocks of scores and labels, the label-0 products `(1 − ℓ) · eˣ`
  and the label-1 products `ℓ · e^{0 − x}`, sums each along the 2048 lanes (a lane sum at the ideal values is the plain
  sum over the lane coordinate), lays the two [512] vectors out as columns, multiplies them and takes `log (1 + ·)`.
  So at row `p` the stored value is `log (1 + (∑ₖ negT) · (∑ₖ posT))` over row `p` of the two blocks; and when the
  blocks are rows `q · 512 + p` of two whole arrays it is the specification's `rowLoss` at that row.
-/
import proofs.«118138_j13572096655779_1_alg».proof.Proof.Gen.KernelIdeal.Skeleton
import proofs.«118138_j13572096655779_1_alg».proof.Proof.LsepSpec
import Idealize.ShloMosaic.Lib.Pipeline.Value

noncomputable section

open scoped BigOperators

namespace Cert.Lsep.Kern

open Cert.KernelIdeal Cert.KernelIdeal.Gen
open Idealize.ShloMosaic Idealize.ShloMosaic.TcCoe Idealize.ShloMosaic.ValueIdx Cert.Lsep

/-- A lane sum of a [512, 2048] block laid out as a [512, 1] column, read at row `p`: the sum over the 2048 lanes. -/
theorem laneSum_column (v : FVec Ideal S512x2048 .f32) (hφ : FKind.Formats .f32)
    (hacc : (0x00000000#32 : BitVec 32) = FKind.add.neutral .f32 hφ) (p : Fin 512) :
    shapeCast S512x1 (multiReduction .add [1] S512 v 0x00000000#32 reduces_S512x2048_S512 hφ hacc) shapeCasts_S512_S512x1 (ix2 p 0)
      = ∑ k : Fin 2048, v (ix2 p k) := by
  refine (shapeCast_apply _ shapeCasts_S512_S512x1 (ix2 p 0) (ix1 p) ?_).trans ?_
  · rw [Shape.rowMajor_val_one, Shape.rowMajor_val_two]
    show p.val = p.val * 1 + 0
    omega
  · refine (Ideal.multiReduction_add_single v _ reduces_S512x2048_S512 hφ hacc (ix1 p)).trans ?_
    exact Finset.sum_congr rfl fun k _ => congrArg v (funext fun a => Fin.ext (by match a with | ⟨0, _⟩ => rfl | ⟨1, _⟩ => rfl))

/-- The stored value at row `p` of the block. -/
theorem pay_row (b0 : Vec Ideal S512x2048 .f32) (b1 : Vec Ideal S512x2048 .i32) (p : Fin 512) :
    k0_pay1 (F := Ideal) b0 b1 (ix2 p 0)
      = Ideal.log1p ((∑ k : Fin 2048, negT (b0 (ix2 p k)) (b1 (ix2 p k))) * (∑ k : Fin 2048, posT (b0 (ix2 p k)) (b1 (ix2 p k)))) := by
  unfold k0_pay1
  refine congrArg Ideal.log1p (congrArg₂ (· * ·) ?_ ?_)
  · exact (laneSum_column _ _ _ p).trans (Finset.sum_congr rfl fun k _ => rfl)
  · exact (laneSum_column _ _ _ p).trans (Finset.sum_congr rfl fun k _ => rfl)

/-- When the two blocks are rows `q · 512 …` of two whole arrays, the stored value at row `p` is the loss of row
    `q · 512 + p` of the arrays. -/
theorem pay_rowLoss (X0 : (⟨2, ![16384, 2048]⟩ : Shape).Idx → EReal) (X1 : (⟨2, ![16384, 2048]⟩ : Shape).Idx → BitVec 32)
    (b0 : Vec Ideal S512x2048 .f32) (b1 : Vec Ideal S512x2048 .i32) (p : Fin 512) (r : Fin 16384)
    (h0 : ∀ k : Fin 2048, b0 (ix2 p k) = X0 (ix2 r k)) (h1 : ∀ k : Fin 2048, b1 (ix2 p k) = X1 (ix2 r k)) :
    k0_pay1 (F := Ideal) b0 b1 (ix2 p 0) = rowLoss X0 X1 r := by
  rw [pay_row]
  unfold rowLoss
  refine congrArg Ideal.log1p (congrArg₂ (· * ·) ?_ ?_)
  · exact Finset.sum_congr rfl fun k _ => by rw [h0 k, h1 k]
  · exact Finset.sum_congr rfl fun k _ => by rw [h0 k, h1 k]

end Cert.Lsep.Kern

end
-- ==== Proof.KernelRun.lean ====
/-
  The idealized kernel's run, read: its result is the mean loss of the argument arrays.

  Grid point `t` of 32 stages rows `512 t … 512 t + 511` of the scores and of the labels (whole rows: the lane axis is
  not tiled) and writes back rows `512 t …` of the [16384, 1] column; the body's stored value at row `p` of the block
  is the loss of row `512 t + p` of the arrays. The 32 blocks tile the column (row `r` lies in block `r / 512`), so
  after the region the column holds `lossColumn` of the arguments. The host lines after the region sum the column from
  the zero word and divide by the word of 16384: the specification's `meanLoss`, the column's sum re-indexed by rows.
-/
import proofs.«118138_j13572096655779_1_alg».proof.Proof.Gen.KernelIdeal.Frame
import proofs.«118138_j13572096655779_1_alg».proof.Proof.KernelRow
import Idealize.ShloMosaic.Lib.Pipeline.Value
import Idealize.ShloMosaic.Lib.StableHlo.Run
import Idealize.ShloMosaic.Lib.Tactic

noncomputable section

open scoped BigOperators

namespace Cert.Lsep.KernRun

open Cert.KernelIdeal Cert.KernelIdeal.Gen
open Idealize.ShloMosaic Idealize.ShloMosaic.TcCoe Idealize.SL.Sem Idealize.ShloMosaic.ValueIdx Cert.Lsep
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The scores and the labels as the region finds them. -/
abbrev scores (c : Dev nD) : (⟨2, ![16384, 2048]⟩ : Shape).Idx → EReal := V m c main_arg0
abbrev labels (c : Dev nD) : (⟨2, ![16384, 2048]⟩ : Shape).Idx → BitVec 32 := V m c main_arg1

/-- The three index maps over the grid: block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 32 := lt_of_lt_of_eq t.isLt (show cfg0.N = 32 from N_0)

/-- Row `p` of the scores' block at point `t` is row `512 t + p` of the scores. -/
theorem iblk0_apply (c : Dev nD) (t : Fin cfg0.N) (p : Fin 512) (k : Fin 2048) (r : Fin 16384) (hr : r.val = t.val * 512 + p.val) :
    (iblk m c 0 t : Vec Ideal S512x2048 .f32) (ix2 p k) = scores m c (ix2 r k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 512 + 1 * p.val = r.val; rw [e0, hr]; omega
  | ⟨1, _⟩ => show win0_0.index t 1 * 2048 + 1 * k.val = k.val; rw [e1]; omega

/-- Row `p` of the labels' block at point `t` is row `512 t + p` of the labels. -/
theorem iblk1_apply (c : Dev nD) (t : Fin cfg0.N) (p : Fin 512) (k : Fin 2048) (r : Fin 16384) (hr : r.val = t.val * 512 + p.val) :
    (iblk m c 1 t : Vec Ideal S512x2048 .i32) (ix2 p k) = labels m c (ix2 r k) := by
  obtain ⟨-, -, e2, e3, -⟩ := idx_facts t
  unfold iblk
  rw [View.read_apply]
  show V m c main_arg1 _ = V m c main_arg1 _
  congr 1
  funext a
  apply Fin.ext
  match a with
  | ⟨0, _⟩ => show win0_1.index t 0 * 512 + 1 * p.val = r.val; rw [e2, hr]; omega
  | ⟨1, _⟩ => show win0_1.index t 1 * 2048 + 1 * k.val = k.val; rw [e3]; omega

/-- What point `t` writes back is block `t` of the loss column of the arguments. -/
theorem flushed_eq (c : Dev nD) (t : Fin cfg0.N) :
    (dats m 0 c).flushed 2 t = ((cfg0.win 2).blk t).view.read (Elt Ideal) (lossColumn (scores m c) (labels m c)) := by
  show (cfg0.win 2).cut (grid0.coords t) ((dats m 0 c).after 2 t) = _
  rw [after0_2]
  unfold out0_2
  rw [View.canon_unit_zero hz]
  simp only [View.ld_unit_zero (S := S512x2048) hz]
  funext j
  obtain ⟨p, z, rfl⟩ : ∃ (p : Fin 512) (z : Fin 1), j = ix2 p z := ⟨j 0, j 1, eq_ix2 j⟩
  obtain rfl : z = 0 := Subsingleton.elim _ _
  have ht := t_lt t
  obtain ⟨-, -, -, -, e4, -⟩ := idx_facts t
  show k0_pay1 (F := Ideal) (iblk m c 0 t) (iblk m c 1 t) (ix2 p 0)
    = lossColumn (scores m c) (labels m c) (((cfg0.win 2).blk t).view.emb (ix2 p 0))
  have hrow : ((((cfg0.win 2).blk t).view.emb (ix2 p 0)) 0).val = t.val * 512 + p.val := by
    show win0_2.index t 0 * 512 + 1 * p.val = _
    rw [e4]; omega
  refine (Kern.pay_rowLoss (scores m c) (labels m c) (iblk m c 0 t) (iblk m c 1 t) p ⟨t.val * 512 + p.val, by omega⟩
    (fun k => iblk0_apply m c t p k _ rfl) (fun k => iblk1_apply m c t p k _ rfl)).trans ?_
  unfold lossColumn
  exact congrArg (rowLoss _ _) (Fin.ext hrow.symm)

/-- An index of the column is in point `t`'s block iff each coordinate is in the block's range on its axis. -/
theorem mem_blk (t : Fin cfg0.N) (i : S16384x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0).slice (win0_2.rect t)).set ↔ _
  rw [View.set_slice_whole, Rect.mem_set_unit]
  exact Iff.rfl

/-- Row `r` of the column lies in the block of point `r / 512`. -/
theorem cover (i : S16384x1.Idx) : ∃ t : Fin cfg0.N, (cfg0.win 2).flush t = true ∧ i ∈ ((cfg0.win 2).blk t).view.set := by
  have hi0 : (i 0).val < 16384 := (i 0).isLt
  have hi1 : (i 1).val < 1 := (i 1).isLt
  have hN : cfg0.N = 32 := N_0
  obtain ⟨t, htv⟩ : ∃ t : Fin cfg0.N, t.val = (i 0).val / 512 := ⟨⟨(i 0).val / 512, by rw [hN]; omega⟩, rfl⟩
  obtain ⟨-, -, -, -, e4, e5⟩ := idx_facts t
  refine ⟨t, flush0_2 t, ?_⟩
  rw [mem_blk]
  intro a
  match a with
  | ⟨0, _⟩ => show win0_2.index t 0 * 512 ≤ (i 0).val ∧ (i 0).val < win0_2.index t 0 * 512 + 512; rw [e4, htv]; omega
  | ⟨1, _⟩ => show win0_2.index t 1 * 1 ≤ (i 1).val ∧ (i 1).val < win0_2.index t 1 * 1 + 1; rw [e5]; omega

/-- After the region the column holds the loss column of the arguments. -/
theorem final (c : Dev nD) : (dats m 0 c).arrAt 2 cfg0.N = lossColumn (scores m c) (labels m c) :=
  (dats m 0 c).arrAt_eq_of_cover 2 (lossColumn (scores m c) (labels m c)) (fun t _ => flushed_eq m c t) cover

/-- The host lines after the region leave the mean loss in the result. -/
theorem tail_eq (c : Dev nD) :
    Pipeline.afterTail₀ cfgs (dats m) 0 (V0 m) [hostOps1] c main_v2 = fun _ => meanLoss (scores m c) (labels m c) := by
  unfold Pipeline.afterTail₀
  show StableHlo.after hostOps1 _ (Proc.devRef .tc main_v2) = _
  after_results
  have hcol : Pipeline.withArrays (cfgs 0).spec c (V0 m c) (fun w => (dats m 0 c).arrAt w (cfgs 0).N) (Proc.devRef .tc main_v0)
      = lossColumn (scores m c) (labels m c) :=
    (Pipeline.withArrays_arr spec0 launch0.win.arr_inj c _ _ 2).trans (final m c)
  rw [hcol]
  funext i
  show Ideal.div (Ideal.hostReduceAdd reducesTo_S16384x1_S_d0_1 (lossColumn (scores m c) (labels m c)) (Ideal.ofBits .f32 0x00000000#32) i)
    (Ideal.ofBits .f32 0x46800000#32) = meanLoss (scores m c) (labels m c)
  rw [Ideal.hostReduceAdd_total reducesTo_S16384x1_S_d0_1 (fun b => b.elim0), sum_column]
  rfl

/-- The run, read: the result at the mean loss of the arguments, the arguments unchanged. -/
theorem run : θ_run defs (onTc (τ := τ) (main (F := Ideal))) ⟨m, fun _ => 0, ρ⟩ fun r => ∀ c : Dev nD,
      r.2.mem ((c.tc : Thread nD τ).loc main_v2)
        = (fun _ => meanLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 rfl (by intro w; fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Lsep.KernRun

end
-- ==== Proof.lean ====
/- The proof of `Cert.Claim`: a pairwise log-sum-exp loss, tiled over rows by the kernel, against its plain reference.

   Both programs compute, for scores `x` and integer labels `ℓ` of shape [16384, 2048], the mean over rows of
   `log (1 + (∑ₖ (1 − ℓ) eˣ) · (∑ₖ ℓ · e^{−x}))` — the kernel with the second factor's terms as products `ℓ · e^{0 − x}`,
   the reference as quotients `ℓ / eˣ`; for a real score these agree (`Proof/LsepSpec.lean`, with the specification
   `meanLoss`), and the precondition makes every score real (`Proof/Finite.lean`).
   The kernel side: the body's stored value at a row (`Proof/KernelRow.lean`); the 32 row blocks tile the result
   column, and the host lines after the region take its mean (`Proof/KernelRun.lean`, over the generated frame run).
   The reference side: its generated run, read one operation at a time (`Proof/RefRow.lean`).
   The three frames are the generated frame runs; the idealization rewrote nothing, so `preserves` is trivial. -/
import proofs.«118138_j13572096655779_1_alg».proof.Defs
import proofs.«118138_j13572096655779_1_alg».proof.Proof.Gen.Kernel
import proofs.«118138_j13572096655779_1_alg».proof.Proof.Gen.Kernel.Skeleton
import proofs.«118138_j13572096655779_1_alg».proof.Proof.Gen.Kernel.Launch
import proofs.«118138_j13572096655779_1_alg».proof.Proof.Gen.Kernel.Points
import proofs.«118138_j13572096655779_1_alg».proof.Proof.Gen.Kernel.Frame
import proofs.«118138_j13572096655779_1_alg».proof.Proof.Gen.KernelIdeal
import proofs.«118138_j13572096655779_1_alg».proof.Proof.Gen.KernelIdeal.Skeleton
import proofs.«118138_j13572096655779_1_alg».proof.Proof.Gen.KernelIdeal.Launch
import proofs.«118138_j13572096655779_1_alg».proof.Proof.Gen.KernelIdeal.Points
import proofs.«118138_j13572096655779_1_alg».proof.Proof.Gen.KernelIdeal.Frame
import proofs.«118138_j13572096655779_1_alg».proof.Proof.Gen.ReferenceIdeal
import proofs.«118138_j13572096655779_1_alg».proof.Proof.Gen.ReferenceIdeal.Run
import proofs.«118138_j13572096655779_1_alg».proof.Proof.Gen.ReferenceIdeal.Read
import proofs.«118138_j13572096655779_1_alg».proof.Proof.Gen.Pre_finite_inputs
import proofs.«118138_j13572096655779_1_alg».proof.Proof.LsepSpec
import proofs.«118138_j13572096655779_1_alg».proof.Proof.Finite
import proofs.«118138_j13572096655779_1_alg».proof.Proof.RefRow
import proofs.«118138_j13572096655779_1_alg».proof.Proof.KernelRow
import proofs.«118138_j13572096655779_1_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at the mean loss of the (agreeing) arguments: the kernel's by its run read, the reference's by its
    stages read at an index, every score being real under the precondition. -/
theorem algebraic : Cert.algebraic_KernelIdeal_ReferenceIdeal := by
  intro m ρ m' ρ' hpre hagree
  refine ⟨_, Cert.Lsep.KernRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2]
  funext i
  exact Cert.Lsep.Ref.result_eq _ _ (fun j => Cert.Lsep.Finite.real_of_pre _ _ (hpre c) j) i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
